-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x20000000 : Shape := ⟨2, ![2, 20000000]⟩
abbrev S20000000 : Shape := ⟨1, ![20000000]⟩
abbrev S_ : Shape := ⟨0, ![]⟩

class Facts : Prop where
  bcast_S_S20000000 : S_.BroadcastsInDim S20000000 (![] : Fin 0 → Fin S20000000.rank)
  reducesTo_S20000000_S_d0 : S20000000.ReducesTo [0] S_
  h_S_ : 0 < S_.numel

variable [Facts]

def fn {F : FTy → Type} [FloatOps F] (main_arg0 : IVec S2x20000000 32) (main_arg1 : FVec F S20000000 .f32) (main_arg2 : IVec S20000000 1) : IVec S_ 1 :=
  let main_v0 : FVec F S20000000 .f32 := Host.absf main_arg1
  let main_cst : FVec F S_ .f32 := constant S_ .f32 0x7F800000#32
  let main_v1 : FVec F S20000000 .f32 := broadcastInDim S20000000 ![] bcast_S_S20000000 main_cst
  let main_v2 : IVec S20000000 1 := cmpf .olt main_v0 main_v1
  let main_c : IVec S_ 1 := constantI S_ 1 1#1
  let main_v3 : IVec S_ 1 := (fun x v => Host.reduce IntOp.andi x v reducesTo_S20000000_S_d0 h_S_) main_v2 main_c
  main_v3
-- ==== Kernel.lean ====
abbrev S2x20000000 : Shape := ⟨2, ![2, 20000000]⟩
abbrev S20000000 : Shape := ⟨1, ![20000000]⟩
abbrev S156250x128 : Shape := ⟨2, ![156250, 128]⟩
abbrev S_ : Shape := ⟨0, ![]⟩
abbrev S163840x128 : Shape := ⟨2, ![163840, 128]⟩
abbrev S8192x128 : Shape := ⟨2, ![8192, 128]⟩

abbrev nBuf : Space → Nat
  | .hbm => 14
  | .vmem => 6
  | .smem => 0
  | _ => 0

abbrev bufTy : (tb : Table) → Fin (tcTables nBuf tb) → BufTy
  | .hbm, ⟨0, _⟩ => ⟨S2x20000000, .i32⟩
  | .hbm, ⟨1, _⟩ => ⟨S20000000, .f32⟩
  | .hbm, ⟨2, _⟩ => ⟨S20000000, .i1⟩
  | .hbm, ⟨3, _⟩ => ⟨S156250x128, .f32⟩
  | .hbm, ⟨4, _⟩ => ⟨S156250x128, .i1⟩
  | .hbm, ⟨5, _⟩ => ⟨S_, .i32⟩
  | .hbm, ⟨6, _⟩ => ⟨S_, .f32⟩
  | .hbm, ⟨7, _⟩ => ⟨S163840x128, .f32⟩
  | .hbm, ⟨8, _⟩ => ⟨S_, .i1⟩
  | .hbm, ⟨9, _⟩ => ⟨S163840x128, .i1⟩
  | .hbm, ⟨10, _⟩ => ⟨S163840x128, .i32⟩
  | .hbm, ⟨11, _⟩ => ⟨S163840x128, .f32⟩
  | .hbm, ⟨12, _⟩ => ⟨S156250x128, .f32⟩
  | .hbm, ⟨13, _⟩ => ⟨S20000000, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S8192x128, .f32⟩
  | .local _ .vmem, ⟨5, _⟩ => ⟨S8192x128, .f32⟩
  | _, _ => ⟨S2x20000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S20000000_S156250x128 : S20000000.ShapeCasts S156250x128
  pads_S156250x128_S163840x128_075900_000 : S156250x128.Pads (![0, 0] : Fin 2 → Nat) ![7590, 0] ![0, 0] S163840x128
  h_S_ : 0 < S_.numel
  natLt_1_32 : 1 < 32
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  slices_S163840x128_S156250x128_0_0 : S163840x128.Slices ![0, 0] S156250x128
  shapeCasts_S156250x128_S20000000 : S156250x128.ShapeCasts S20000000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S163840x128.size a
  hwx0_0 : ∀ i : grid0.Coords, EltTy.bits .f32 = 32 ∨ (Rect.block (s := S163840x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S163840x128.size a
  hwx0_1 : ∀ i : grid0.Coords, EltTy.bits .i32 = 32 ∨ (Rect.block (s := S163840x128) S8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S163840x128.size a
  hwx0_2 : ∀ i : grid0.Coords, EltTy.bits .f32 = 32 ∨ (Rect.block (s := S163840x128) S8192x128.size (cc0_transform_2 i) (hinb0_2 i)).WholeWords (EltTy.packing .f32)

variable [Facts₀]

abbrev win0_0 : Pipeline.Window sig grid0 :=
  Pipeline.Window.ofSpec (Memref.whole main_v2) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x20000000 : Shape := ⟨2, ![2, 20000000]⟩
abbrev S20000000 : Shape := ⟨1, ![20000000]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2x20000000, .i32⟩
  | .hbm, ⟨1, _⟩ => ⟨S20000000, .f32⟩
  | .hbm, ⟨2, _⟩ => ⟨S20000000, .i1⟩
  | .hbm, ⟨3, _⟩ => ⟨S_, .f32⟩
  | .hbm, ⟨4, _⟩ => ⟨S20000000, .f32⟩
  | .hbm, ⟨5, _⟩ => ⟨S20000000, .f32⟩
  | _, _ => ⟨S2x20000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩

abbrev nD : Nat := 1
abbrev τ : Topo := Topo.v7x

variable {F : FTy → Type} [FloatOps F]

class Facts₀ : Prop where
  bcast_S_S20000000 : S_.BroadcastsInDim S20000000 (![] : Fin 0 → Fin S20000000.rank)

variable [Facts₀]

class Facts : Prop extends Facts₀ where

variable [Facts]
-- ==== Proof.PaddedRegion.lean ====
/-
  The region's output array as one function of its two input arrays.

  The body keeps an entry of the f32 block where the matching i32 word is non-zero and writes the zero float elsewhere.
  All three windows walk the padded [163840, 128] arrays with one index map (block row t, block column 0), and the
  twenty blocks of 8192 rows tile the array, so after the run the output array is that same entrywise choice of the two
  padded input arrays as the region found them.
-/
import proofs.«134833_j5171140624758_1_alg».proof.Proof.Gen.KernelIdeal.Frame
import Idealize.ShloMosaic.Lib.Pipeline.Value
import Idealize.ShloMosaic.Lib.ValueIdx

set_option maxRecDepth 16384

noncomputable section

namespace Cert.KernelIdeal.Dropout

open Idealize.ShloMosaic Idealize.ShloMosaic.TcCoe Idealize.SL.Sem
open Cert.KernelIdeal Cert.KernelIdeal.Gen
open Idealize.ShloMosaic.Pipeline (Dat Cfg Window)

variable {F : FTy → Type} [FloatOps F]
variable (m : (ℓ : Loc nD τ sig) → Buf (Elt F) ℓ) (ρ : Dev nD → PrngReg)

/-- Entry by entry: the float where the word is non-zero, the zero float where it is zero. -/
def keepNonzero {s : Shape} (x : s.Idx → F .f32) (w : s.Idx → BitVec 32) : s.Idx → F .f32 :=
  fun i => Scalar.select (IntOp.cmpi .ne (w i) 0#32) (x i) (Scalar.ofBits .f32 0x00000000#32)

/-- The body's one stored value is that choice of its two loaded blocks (the two shape casts are to the same shape). -/
theorem pay_eq (w : Vec F S8192x128 .i32) (x : Vec F S8192x128 .f32) : k0_pay1 w x = keepNonzero x w := by
  unfold k0_pay1
  simp only [shapeCast_self]
  rfl

theorem zero_off : (![0, 0] : Fin 2 → Nat) = fun _ => 0 := funext fun a => by fin_cases a <;> rfl

/-- The three index maps agree: at point t each window's block sits at block row t (below 20), block column 0. -/
theorem index_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val
    ∧ win0_2.index t (1 : Fin 2) = 0 :=
  (by decide +kernel : ∀ t : Fin grid0.N, _)

/-- What point t writes back is block t of the entrywise choice of the two input arrays as the region finds them. -/
theorem flushed_eq (c : Dev nD) (t : Fin cfg0.N) :
    (dats m 0 c).flushed 2 t = ((cfg0.win 2).blk t).view.read (Elt F) (keepNonzero (V m c main_v2) (V m c main_v4)) := by
  show (cfg0.win 2).cut (grid0.coords t) ((dats m 0 c).after 2 t) = _
  rw [after0_2]
  unfold out0_2
  rw [View.canon_unit_zero zero_off]
  simp only [View.ld_unit_zero (S := S8192x128) zero_off]
  rw [pay_eq]
  obtain ⟨e0, e1, e2, e3, e4, e5⟩ := index_facts t
  funext j
  show Scalar.select (IntOp.cmpi .ne (V m c main_v4 (((cfg0.win 1).blk t).view.emb j)) 0#32) (V m c main_v2 (((cfg0.win 0).blk t).view.emb j)) (Scalar.ofBits .f32 0x00000000#32)
    = Scalar.select (IntOp.cmpi .ne (V m c main_v4 (((cfg0.win 2).blk t).view.emb j)) 0#32) (V m c main_v2 (((cfg0.win 2).blk t).view.emb j)) (Scalar.ofBits .f32 0x00000000#32)
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 128 + 1 * (j 1).val = win0_2.index t (1 : Fin 2) * 128 + 1 * (j 1).val; omega
  rw [h0, h1]

/-- An index of the padded array is in point t's block iff each coordinate is in the block's range on its axis. -/
theorem mem_blk (t : Fin cfg0.N) (i : S163840x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v5).slice (win0_2.rect t)).set ↔ _
  rw [View.set_slice_whole, Rect.mem_set_unit]
  exact Iff.rfl

/-- The twenty blocks tile the array: row r is in the block of point r / 8192. -/
theorem covered (i : S163840x128.Idx) :
    ∃ t : Fin cfg0.N, (cfg0.win 2).flush t = true ∧ i ∈ ((cfg0.win 2).blk t).view.set := by
  have hi0 : (i 0).val < 163840 := (i 0).isLt
  have hi1 : (i 1).val < 128 := (i 1).isLt
  have hN : cfg0.N = 20 := N_0
  let t : Fin cfg0.N := ⟨(i 0).val / 8192, by rw [hN]; omega⟩
  obtain ⟨-, -, -, -, e4, e5⟩ := index_facts t
  have e4' : win0_2.index t (0 : Fin 2) = (i 0).val / 8192 := e4
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 128 ≤ (i 1).val ∧ (i 1).val < win0_2.index t (1 : Fin 2) * 128 + 128; omega

/-- The output array after the run. -/
theorem final (c : Dev nD) : (dats m 0 c).arrAt 2 cfg0.N = keepNonzero (V m c main_v2) (V m c main_v4) :=
  (dats m 0 c).arrAt_eq_of_cover 2 _ (fun t _ => flushed_eq m c t) covered

end Cert.KernelIdeal.Dropout

end
-- ==== Proof.Spec.lean ====
/-
  The function both programs compute: entry i of the result is values i where the one-bit mask is set and the zero float
  where it is clear. Also the one fact about words the kernel's route needs: widening a one-bit mask to 32 bits and
  asking "is it non-zero" gives the mask bit back.
-/
import Idealize.ShloMosaic.PureOps.Ideal
import Idealize.ShloMosaic.Lib.ValueIdx

noncomputable section

namespace Cert.Dropout

open Idealize.ShloMosaic

variable {F : FTy → Type} [FloatOps F]

/-- The masked vector: the value where the mask bit is set, the zero float where it is clear. -/
def keptValues {s : Shape} (x : s.Idx → F .f32) (b : s.Idx → BitVec 1) : s.Idx → F .f32 :=
  fun i => Scalar.select (b i) (x i) (FloatOps.ofBits .f32 0x00000000#32)

/-- A one-bit word zero-extended to 32 bits is non-zero exactly when the bit is set. -/
theorem ne_zero_of_widened (b : BitVec 1) : IntOp.cmpi .ne (b.setWidth 32) 0#32 = b := by
  revert b; decide

end Cert.Dropout

end
-- ==== Proof.HostSides.lean ====
/-
  From the region's array to the program's result, and from the program's arguments to the region's arrays.

  Before the region the two flat arguments are reshaped to [156250, 128] and padded with 7590 more rows (the mask then
  widened to 32-bit words); after it the first 156250 rows are cut out and flattened again. Entry n of the result is
  therefore the region's entry (n / 128, n % 128), a row below 156250, where each padded array holds the reshaped
  argument's entry, which is entry n of the flat argument. The padding rows never reach the result.
-/
import proofs.«134833_j5171140624758_1_alg».proof.Proof.PaddedRegion
import proofs.«134833_j5171140624758_1_alg».proof.Proof.Spec
import Idealize.ShloMosaic.Lib.KernelVsHost
import Idealize.ShloMosaic.Lib.StableHlo.Run

set_option maxRecDepth 16384

noncomputable section

namespace Cert.KernelIdeal.Dropout

open Idealize.ShloMosaic Idealize.ShloMosaic.TcCoe Idealize.SL.Sem Idealize.ShloMosaic.StableHlo
open Idealize.ShloMosaic.ValueIdx
open Cert.KernelIdeal Cert.KernelIdeal.Gen Cert.Dropout

variable {F : FTy → Type} [FloatOps F]
variable (m : (ℓ : Loc nD τ sig) → Buf (Elt F) ℓ) (ρ : Dev nD → PrngReg)

/-! ## The two layout facts, over any element type -/

/-- Reshape a flat vector to [156250, 128] and pad rows below it: at row q < 156250, column r, the padded array holds
    the flat vector's entry q * 128 + r. -/
theorem padded_apply {α : Type} (x : S20000000.Idx → α) (v : S_.Idx → α) (q : Fin 156250) (r : Fin 128)
    (hq : q.val < 163840) (hn : q.val * 128 + r.val < 20000000) :
    pad S163840x128 ![0, 0] ![7590, 0] ![0, 0] (shapeCast S156250x128 x shapeCasts_S20000000_S156250x128) v
      pads_S156250x128_S163840x128_075900_000 h_S_ (ix2 (⟨q.val, hq⟩ : Fin 163840) r)
    = x (ix1 (⟨q.val * 128 + r.val, hn⟩ : Fin 20000000)) := by
  refine (pad_apply_of_inside _ _ _ _ v _ _ (ix2 (⟨q.val, hq⟩ : Fin 163840) r) (ix2 q r) ?_).trans ?_
  · intro a
    match a with
    | ⟨0, _⟩ => show q.val = 0 + q.val * (0 + 1); omega
    | ⟨1, _⟩ => show r.val = 0 + r.val * (0 + 1); omega
  · refine shapeCast_apply x _ (ix2 q r) (ix1 (⟨q.val * 128 + r.val, hn⟩ : Fin 20000000)) ?_
    rw [Shape.rowMajor_val_one, Shape.rowMajor_val_two]
    rfl

/-- Cut the first 156250 rows out of a [163840, 128] array and flatten them: entry q * 128 + r of the flat vector is the
    array's entry at row q, column r. -/
theorem cut_flat_apply {α : Type} (z : S163840x128.Idx → α) (q : Fin 156250) (r : Fin 128)
    (hq : q.val < 163840) (hn : q.val * 128 + r.val < 20000000) :
    shapeCast S20000000 (extractStridedSlice S156250x128 ![0, 0] z slices_S163840x128_S156250x128_0_0)
      shapeCasts_S156250x128_S20000000 (ix1 (⟨q.val * 128 + r.val, hn⟩ : Fin 20000000))
    = z (ix2 (⟨q.val, hq⟩ : Fin 163840) r) := by
  refine (shapeCast_apply _ _ (ix1 (⟨q.val * 128 + r.val, hn⟩ : Fin 20000000)) (ix2 q r) ?_).trans ?_
  · rw [Shape.rowMajor_val_one, Shape.rowMajor_val_two]
    rfl
  · refine extractStridedSlice_apply _ z _ (ix2 q r) (ix2 (⟨q.val, hq⟩ : Fin 163840) r) ?_
    intro a
    match a with
    | ⟨0, _⟩ => show q.val = 0 + q.val; omega
    | ⟨1, _⟩ => show r.val = 0 + r.val; omega

/-! ## The arrays the region finds, and the result the lines after it leave -/

/-- The f32 array the region finds: the values reshaped and padded (with the integer zero converted to a float). -/
theorem entry_values (c : Dev nD) : (V m c main_v2 : S163840x128.Idx → F .f32)
    = pad S163840x128 ![0, 0] ![7590, 0] ![0, 0]
        (shapeCast S156250x128 (m ((c : Thread nD τ).loc main_arg1)) shapeCasts_S20000000_S156250x128)
        (sitofp .f32 (constantI S_ 32 0#32)) pads_S156250x128_S163840x128_075900_000 h_S_ := by
  dsimp only [Gen.V, Gen.V0]
  simp only [hostOps0, hostOps0_1, hostOps0_2, hostOps0_3, hostOps0_4, List.flatten_cons, List.flatten_nil, List.append_nil,
    List.cons_append, List.nil_append]
  after_results
  rfl

/-- The word array the region finds: the mask reshaped, padded with clear bits, and widened to 32 bits. -/
theorem entry_mask (c : Dev nD) : (V m c main_v4 : S163840x128.Idx → BitVec 32)
    = extui 32 (pad S163840x128 ![0, 0] ![7590, 0] ![0, 0]
        (shapeCast S156250x128 (m ((c : Thread nD τ).loc main_arg2)) shapeCasts_S20000000_S156250x128)
        (constantI S_ 1 0#1) pads_S156250x128_S163840x128_075900_000 h_S_) natLt_1_32 := by
  dsimp only [Gen.V, Gen.V0]
  simp only [hostOps0, hostOps0_1, hostOps0_2, hostOps0_3, hostOps0_4, List.flatten_cons, List.flatten_nil, List.append_nil,
    List.cons_append, List.nil_append]
  after_results
  rfl

/-- The program's result after the lines that follow the region: the region's output array, its first 156250 rows
    flattened. -/
theorem result_of_region (c : Dev nD) :
    (Pipeline.afterTail₀ cfgs (dats m) 0 (V0 m) [hostOps1] c main_v7 : S20000000.Idx → F .f32)
    = shapeCast S20000000 (extractStridedSlice S156250x128 ![0, 0] ((dats m 0 c).arrAt 2 cfg0.N)
        slices_S163840x128_S156250x128_0_0) shapeCasts_S156250x128_S20000000 := by
  have hw : Pipeline.withArrays (cfgs 0).spec c (V0 m c) (fun w => (dats m 0 c).arrAt w (cfgs 0).N) (Proc.devRef .tc main_v5)
      = (dats m 0 c).arrAt 2 cfg0.N :=
    Pipeline.withArrays_arr spec0 launch0.win.arr_inj c (V0 m c) (fun w => (dats m 0 c).arrAt w cfg0.N) 2
  unfold Pipeline.afterTail₀
  show StableHlo.after hostOps1 _ (Proc.devRef .tc main_v7) = _
  after_results
  rw [hw]
  rfl

/-! ## The result, entry by entry -/

/-- The kernel program's result is the masked vector of its two arguments. -/
theorem result_eq (c : Dev nD) :
    (Pipeline.afterTail₀ cfgs (dats m) 0 (V0 m) [hostOps1] c main_v7 : S20000000.Idx → F .f32)
    = keptValues (m ((c : Thread nD τ).loc main_arg1)) (m ((c : Thread nD τ).loc main_arg2)) := by
  rw [result_of_region, final, entry_values, entry_mask]
  funext i
  have hi : (i 0).val < 20000000 := (i 0).isLt
  have hq : (i 0).val / 128 < 156250 := by omega
  have hr : (i 0).val % 128 < 128 := Nat.mod_lt _ (by omega)
  have hn : (i 0).val / 128 * 128 + (i 0).val % 128 < 20000000 := by omega
  have ei : i = ix1 (⟨(i 0).val / 128 * 128 + (i 0).val % 128, hn⟩ : Fin 20000000) := by
    funext d
    match d with
    | ⟨0, _⟩ => exact Fin.ext (by show (i 0).val = (i 0).val / 128 * 128 + (i 0).val % 128; omega)
  rw [ei]
  rw [cut_flat_apply _ (⟨(i 0).val / 128, hq⟩ : Fin 156250) (⟨(i 0).val % 128, hr⟩ : Fin 128) (by show (i 0).val / 128 < 163840; omega) hn]
  unfold keepNonzero keptValues
  rw [extui_apply,
    padded_apply _ _ (⟨(i 0).val / 128, hq⟩ : Fin 156250) (⟨(i 0).val % 128, hr⟩ : Fin 128) (by show (i 0).val / 128 < 163840; omega) hn,
    padded_apply _ _ (⟨(i 0).val / 128, hq⟩ : Fin 156250) (⟨(i 0).val % 128, hr⟩ : Fin 128) (by show (i 0).val / 128 < 163840; omega) hn,
    ne_zero_of_widened]

/-! ## The run, read -/

/-- Every weakly fair execution of the kernel program ends with the result at the masked vector and the arguments
    unchanged. -/
theorem run : θ_run defs (onTc (τ := τ) (main (F := F))) ⟨m, fun _ => 0, ρ⟩ fun r => ∀ c : Dev nD,
      r.2.mem ((c.tc : Thread nD τ).loc main_v7)
        = keptValues (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Dropout

end
-- ==== Proof.ReferenceSide.lean ====
/-
  The reference's result term is the masked vector: its select reads the mask, the values and a broadcast of the zero
  float constant, entry by entry.
-/
import proofs.«134833_j5171140624758_1_alg».proof.Proof.Gen.ReferenceIdeal.Read
import proofs.«134833_j5171140624758_1_alg».proof.Proof.Spec

noncomputable section

namespace Cert.ReferenceIdeal.Dropout

open Idealize.ShloMosaic Idealize.ShloMosaic.TcCoe Idealize.SL.Sem
open Cert.ReferenceIdeal Cert.ReferenceIdeal.Gen Cert.ReferenceIdeal.Read Cert.Dropout

variable {F : FTy → Type} [FloatOps F]

/-- The reference's select over the broadcast zero constant is the masked vector. -/
theorem result_eq (x : S20000000.Idx → F .f32) (b : S20000000.Idx → BitVec 1) :
    select b x (broadcastInDim S20000000 ![] bcast_S_S20000000 (constant S_ .f32 0x00000000#32)) = keptValues x b := by
  rw [val_main_v0_eq]
  funext i
  rw [val_main_v0_apply, val_main_call0_v0_apply, val_main_cst_apply]
  rfl

end Cert.ReferenceIdeal.Dropout

end
-- ==== Proof.lean ====
/-
  Sparse dropout on a flat vector of 20,000,000 values: entry i of the result is values i where the keep mask is set and
  the zero float where it is clear; the index array takes no part.

  The reference computes exactly that, with one select over a broadcast zero. The kernel program reshapes values and mask
  to [156250, 128], pads both to 163840 rows (a multiple of the 8192-row block), widens the mask to 32-bit words, runs a
  twenty-point grid whose body keeps a block's entry where the word is non-zero and writes zero elsewhere, then cuts the
  padding rows off and flattens. Widening a bit and testing it against zero returns the bit, the blocks tile the padded
  array, and row q, column r of the padded arrays is flat entry q * 128 + r, so the two results are one function of the
  arguments at every float instance; no arithmetic on the values happens and finiteness is not used.

  Modules: Spec (the masked vector; the word fact), PaddedRegion (the region's output array as one function of the two
  arrays it finds), HostSides (the lines before and after the region, and the kernel program's run read at the result),
  ReferenceSide (the reference's term is the masked vector). The frames of the two kernel programs are the generated
  ones; the reference's frame is its generated run with the result dropped; the idealization rewrote nothing.
-/
import proofs.«134833_j5171140624758_1_alg».proof.Defs
import proofs.«134833_j5171140624758_1_alg».proof.Proof.Gen.Kernel
import proofs.«134833_j5171140624758_1_alg».proof.Proof.Gen.Kernel.Skeleton
import proofs.«134833_j5171140624758_1_alg».proof.Proof.Gen.Kernel.Launch
import proofs.«134833_j5171140624758_1_alg».proof.Proof.Gen.Kernel.Points
import proofs.«134833_j5171140624758_1_alg».proof.Proof.Gen.Kernel.Frame
import proofs.«134833_j5171140624758_1_alg».proof.Proof.Gen.KernelIdeal
import proofs.«134833_j5171140624758_1_alg».proof.Proof.Gen.KernelIdeal.Skeleton
import proofs.«134833_j5171140624758_1_alg».proof.Proof.Gen.KernelIdeal.Launch
import proofs.«134833_j5171140624758_1_alg».proof.Proof.Gen.KernelIdeal.Points
import proofs.«134833_j5171140624758_1_alg».proof.Proof.Gen.KernelIdeal.Frame
import proofs.«134833_j5171140624758_1_alg».proof.Proof.Gen.ReferenceIdeal
import proofs.«134833_j5171140624758_1_alg».proof.Proof.Gen.Pre_finite_inputs
import proofs.«134833_j5171140624758_1_alg».proof.Proof.Gen.ReferenceIdeal.Run
import proofs.«134833_j5171140624758_1_alg».proof.Proof.Gen.ReferenceIdeal.Read
import proofs.«134833_j5171140624758_1_alg».proof.Proof.HostSides
import proofs.«134833_j5171140624758_1_alg».proof.Proof.ReferenceSide
import Idealize.ShloMosaic.Adequacy
import Idealize.ShloMosaic.Init

noncomputable section

namespace Cert.Proof

open Idealize.ShloMosaic Idealize.SL.Sem

namespace Claims

variable [Cert.Kernel.Facts] [Cert.KernelIdeal.Facts] [Cert.ReferenceIdeal.Facts] [Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the masked vector of the values and the mask. -/
theorem algebraic : Cert.algebraic_KernelIdeal_ReferenceIdeal := by
  intro m ρ m' ρ' _ hagree
  refine ⟨_, Cert.KernelIdeal.Dropout.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).2.1, (hagree c).2.2]
  exact Cert.ReferenceIdeal.Dropout.result_eq _ _

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
